-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩

abbrev nBuf : Space → Nat
  | .hbm => 76
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128x128, .f32⟩
  | .hbm, ⟨24, _⟩ => ⟨S128x128, .f32⟩
  | .hbm, ⟨25, _⟩ => ⟨S1x128, .f32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x128x128, .f32⟩
  | .hbm, ⟨11, _⟩ => ⟨S128x128, .f32⟩
  | .hbm, ⟨12, _⟩ => ⟨S1x128, .f32⟩
  | .hbm, ⟨13, _⟩ => ⟨S128, .f32⟩
  | .hbm, ⟨14, _⟩ => ⟨S1x128x128, .f32⟩
  | .hbm, ⟨15, _⟩ => ⟨S128x128, .f32⟩
  | .hbm, ⟨16, _⟩ => ⟨S1x128, .f32⟩
  | .hbm, ⟨17, _⟩ => ⟨S128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S1x128, .f32⟩
  | .hbm, ⟨49, _⟩ => ⟨S128, .f32⟩
  | .hbm, ⟨50, _⟩ => ⟨S1x128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128x128, .f32⟩
  | .hbm, ⟨87, _⟩ => ⟨S128x128, .f32⟩
  | .hbm, ⟨88, _⟩ => ⟨S1x128, .f32⟩
  | .hbm, ⟨89, _⟩ => ⟨S128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_3 : Ref sig .tc := ⟨.hbm, 54, rfl⟩
abbrev main_v43 : Ref sig .tc := ⟨.hbm, 55, rfl⟩
abbrev main_v44 : Ref sig .tc := ⟨.hbm, 56, rfl⟩
abbrev main_c_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_c_8 : Ref sig .tc := ⟨.hbm, 90, rfl⟩
abbrev main_v74 : Ref sig .tc := ⟨.hbm, 91, rfl⟩
abbrev main_v75 : Ref sig .tc := ⟨.hbm, 92, rfl⟩
abbrev main_c_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_10 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The function both programs compute: three rounds of neighbour aggregation followed by a two-layer perceptron.

  A node's row `h = x_row + a_row` (its own features plus the sum `a` over its in-edges of the source rows) goes
  through `h ↦ max (h · W1 + b1) 0 · W2 + b2`, with a final `max · 0` on all rounds but the last. Everything is read
  on the extended reals: each matrix product is the plain sum over the 128 contracted columns, in one fixed order on
  both sides, so no law beyond the definitions is needed to join the two programs (in particular nothing that would
  ask the entries to be finite).

  The neighbour sum itself is a parameter `agg`: the two programs compute it by the same host operations, and this
  file never opens it.
-/
import Idealize.ShloMosaic.PureOps.Ideal
import Idealize.ShloMosaic.Lib.ValueIdx

noncomputable section

open scoped BigOperators

namespace Cert.Gin

open Idealize.ShloMosaic Idealize.ShloMosaic.ValueIdx

/-- The node-feature array: 100000 nodes, 128 features each. -/
abbrev Nodes : Shape := ⟨2, ![100000, 128]⟩
/-- One weight matrix. -/
abbrev Mat : Shape := ⟨2, ![128, 128]⟩
/-- One bias row. -/
abbrev Bias : Shape := ⟨1, ![128]⟩

/-- The value of the f32 word of all zero bits (kept as the word: both programs spell the same one). -/
abbrev zero : EReal := Ideal.ofBits .f32 0x00000000#32

/-- One row `h` through the perceptron, read at output column `q`:
    `(∑ k, max (∑ j, h j · W1[j,k] + b1[k]) 0 · W2[k,q]) + b2[q]`, clamped below at zero when `relu`. -/
def perceptron (relu : Bool) (h : Fin 128 → EReal) (W1 : FVec Ideal Mat .f32) (b1 : FVec Ideal Bias .f32)
    (W2 : FVec Ideal Mat .f32) (b2 : FVec Ideal Bias .f32) (q : Fin 128) : EReal :=
  match relu with
  | true => max ((∑ k : Fin 128, max ((∑ j : Fin 128, h j * W1 (ix2 j k)) + b1 (ix1 k)) zero * W2 (ix2 k q)) + b2 (ix1 q)) zero
  | false => (∑ k : Fin 128, max ((∑ j : Fin 128, h j * W1 (ix2 j k)) + b1 (ix1 k)) zero * W2 (ix2 k q)) + b2 (ix1 q)

/-- One round on the whole array: row `p` of the result is the perceptron of row `p` of `x + a`. -/
def layer (relu : Bool) (x a : FVec Ideal Nodes .f32) (W1 : FVec Ideal Mat .f32) (b1 : FVec Ideal Bias .f32)
    (W2 : FVec Ideal Mat .f32) (b2 : FVec Ideal Bias .f32) : FVec Ideal Nodes .f32 :=
  fun i => perceptron relu (fun j => x (ix2 (i 0 : Fin 100000) j) + a (ix2 (i 0 : Fin 100000) j)) W1 b1 W2 b2 (i 1 : Fin 128)

theorem layer_ix2 (relu : Bool) (x a : FVec Ideal Nodes .f32) (W1 : FVec Ideal Mat .f32) (b1 : FVec Ideal Bias .f32)
    (W2 : FVec Ideal Mat .f32) (b2 : FVec Ideal Bias .f32) (p : Fin 100000) (q : Fin 128) :
    layer relu x a W1 b1 W2 b2 (ix2 p q) = perceptron relu (fun j => x (ix2 p j) + a (ix2 p j)) W1 b1 W2 b2 q := rfl

/-- The three rounds: the first two clamp their result, the last does not; each round aggregates what the round
    before it produced. -/
def net (agg : FVec Ideal Nodes .f32 → FVec Ideal Nodes .f32) (x : FVec Ideal Nodes .f32)
    (W1a : FVec Ideal Mat .f32) (b1a : FVec Ideal Bias .f32) (W2a : FVec Ideal Mat .f32) (b2a : FVec Ideal Bias .f32)
    (W1b : FVec Ideal Mat .f32) (b1b : FVec Ideal Bias .f32) (W2b : FVec Ideal Mat .f32) (b2b : FVec Ideal Bias .f32)
    (W1c : FVec Ideal Mat .f32) (b1c : FVec Ideal Bias .f32) (W2c : FVec Ideal Mat .f32) (b2c : FVec Ideal Bias .f32) :
    FVec Ideal Nodes .f32 :=
  layer false
    (layer true (layer true x (agg x) W1a b1a W2a b2a) (agg (layer true x (agg x) W1a b1a W2a b2a)) W1b b1b W2b b2b)
    (agg (layer true (layer true x (agg x) W1a b1a W2a b2a) (agg (layer true x (agg x) W1a b1a W2a b2a)) W1b b1b W2b b2b))
    W1c b1c W2c b2c

end Cert.Gin

end
-- ==== Proof.KerBlock.lean ====
import proofs.«147381_j28020366639701_1_alg».proof.Proof.Gen.KernelIdeal.Skeleton
import proofs.«147381_j28020366639701_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Block

open Idealize.ShloMosaic Idealize.ShloMosaic.ValueIdx Cert.KernelIdeal Cert.KernelIdeal.Gen

/-! ## The block product read at one entry

The dimension numbers contract the left operand's axis 1 with the right operand's axis 0 and keep the other two, so
the operands' indices at output entry `i` and contraction index `c` are `(i 0, c)` and `(c, i 1)`. -/

theorem lhs_dot_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_dot_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_dot_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator, at row `p` and column `q`: the sum over the 128 contracted columns. -/
theorem mm_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The bias row spread over the block's rows -/

/-- A 128-vector viewed as one row and repeated down the 2000 rows reads, at `(p, q)`, its entry `q`. -/
theorem bias_apply (v : FVec Ideal S128 .f32) (p : Fin 2000) (q : Fin 128) :
    broadcastTo S2000x128 (shapeCast S1x128 (shapeCast S128 v shapeCasts_S128_S128) shapeCasts_S128_S1x128)
        broadcasts_S1x128_S2000x128 (ix2 p q) = v (ix1 q) := by
  rw [shapeCast_self]
  exact (broadcastTo_1b_ab_apply _ _ p q).trans (shapeCast_a_1a_apply v _ 0 q)

/-! ## One affine layer of the body at an entry -/

/-- A block times a weight matrix plus a bias row, as the body spells it (both operands narrowed, which changes no
    value here; the product taken into zeros), at `(p, q)`: `∑ k, h[p,k] · w[k,q] + b[q]`. -/
theorem affine_apply (h : FVec Ideal S2000x128 .f32) (w : FVec Ideal S128x128 .f32) (b : FVec Ideal S128 .f32)
    (p : Fin 2000) (q : Fin 128) :
    addf (matmul dot_S2000x128_S128x128_S2000x128_1_0_0_1_n_n none (truncf .bf16 h bitsLt_bf16_f32)
            (truncf .bf16 (shapeCast S128x128 w shapeCasts_S128x128_S128x128) bitsLt_bf16_f32)
            (constant (F := Ideal) S2000x128 .f32 0x00000000#32))
         (broadcastTo S2000x128 (shapeCast S1x128 (shapeCast S128 b shapeCasts_S128_S128) shapeCasts_S128_S1x128)
            broadcasts_S1x128_S2000x128) (ix2 p q)
      = (∑ k : Fin 128, h (ix2 p k) * w (ix2 k q)) + b (ix1 q) := by
  rw [shapeCast_self]
  refine (addf_apply _ _ _).trans ?_
  rw [mm_apply, bias_apply]
  rfl

/-! ## The two layers of the body, up to the last clamp -/

/-- The body's value before its last clamp, at `(p, q)`, for any first operand `h` whose row `p` is `g`: the
    unclamped perceptron of `g`. The inner clamp's zero is the same word on both sides and is never evaluated. -/
theorem body_apply (h : FVec Ideal S2000x128 .f32) (g : Fin 128 → EReal)
    (w1 : FVec Ideal S128x128 .f32) (b1 : FVec Ideal S128 .f32) (w2 : FVec Ideal S128x128 .f32) (b2 : FVec Ideal S128 .f32)
    (p : Fin 2000) (q : Fin 128) (hg : ∀ j : Fin 128, h (ix2 p j) = g j) :
    addf (matmul dot_S2000x128_S128x128_S2000x128_1_0_0_1_n_n none
            (truncf .bf16
              (maximumf
                (addf (matmul dot_S2000x128_S128x128_S2000x128_1_0_0_1_n_n none (truncf .bf16 h bitsLt_bf16_f32)
                        (truncf .bf16 (shapeCast S128x128 w1 shapeCasts_S128x128_S128x128) bitsLt_bf16_f32)
                        (constant (F := Ideal) S2000x128 .f32 0x00000000#32))
                      (broadcastTo S2000x128 (shapeCast S1x128 (shapeCast S128 b1 shapeCasts_S128_S128) shapeCasts_S128_S1x128)
                        broadcasts_S1x128_S2000x128))
                (broadcast S2000x128 (Scalar.ofBits (F := Ideal) .f32 0x00000000#32)))
              bitsLt_bf16_f32)
            (truncf .bf16 (shapeCast S128x128 w2 shapeCasts_S128x128_S128x128) bitsLt_bf16_f32)
            (constant (F := Ideal) S2000x128 .f32 0x00000000#32))
         (broadcastTo S2000x128 (shapeCast S1x128 (shapeCast S128 b2 shapeCasts_S128_S128) shapeCasts_S128_S1x128)
            broadcasts_S1x128_S2000x128) (ix2 p q)
      = Cert.Gin.perceptron false g w1 b1 w2 b2 q := by
  refine (affine_apply _ w2 b2 p q).trans ?_
  show _ = (∑ k : Fin 128, max ((∑ j : Fin 128, g j * w1 (ix2 j k)) + b1 (ix1 k)) Cert.Gin.zero * w2 (ix2 k q)) + b2 (ix1 q)
  refine congrArg (· + b2 (ix1 q)) (Finset.sum_congr rfl fun k _ => ?_)
  refine congrArg (· * w2 (ix2 k q)) ?_
  refine (maximumf_apply _ _ _).trans ?_
  refine congrArg (max · Cert.Gin.zero) ?_
  refine (affine_apply h w1 b1 p k).trans ?_
  exact congrArg (· + b1 (ix1 k)) (Finset.sum_congr rfl fun j _ => congrArg (· * w1 (ix2 j k)) (hg j))

/-- Region 0's stored value at row `p`, column `q` of the block. -/
theorem pay0_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k0_pay1 (F := Ideal) x0 x1 x2 x3 x4 x5 (ix2 p q)
      = Cert.Gin.perceptron true (fun j => x0 (ix2 p j) + x1 (ix2 p j)) x2 x3 x4 x5 q := by
  unfold k0_pay1
  refine (maximumf_apply _ _ _).trans ?_
  show _ = max (Cert.Gin.perceptron false (fun j => x0 (ix2 p j) + x1 (ix2 p j)) x2 x3 x4 x5 q) Cert.Gin.zero
  refine congrArg (max · Cert.Gin.zero) ?_
  exact body_apply _ _ x2 x3 x4 x5 p q fun j => by rw [shapeCast_self]; rfl

theorem pay1_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k1_pay1 (F := Ideal) x0 x1 x2 x3 x4 x5 (ix2 p q)
      = Cert.Gin.perceptron true (fun j => x0 (ix2 p j) + x1 (ix2 p j)) x2 x3 x4 x5 q := by
  unfold k1_pay1
  refine (maximumf_apply _ _ _).trans ?_
  show _ = max (Cert.Gin.perceptron false (fun j => x0 (ix2 p j) + x1 (ix2 p j)) x2 x3 x4 x5 q) Cert.Gin.zero
  refine congrArg (max · Cert.Gin.zero) ?_
  exact body_apply _ _ x2 x3 x4 x5 p q fun j => by rw [shapeCast_self, shapeCast_self]; rfl

theorem pay2_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k2_pay1 (F := Ideal) x0 x1 x2 x3 x4 x5 (ix2 p q)
      = Cert.Gin.perceptron false (fun j => x0 (ix2 p j) + x1 (ix2 p j)) x2 x3 x4 x5 q := by
  unfold k2_pay1
  exact body_apply _ _ x2 x3 x4 x5 p q fun j => by rw [shapeCast_self, shapeCast_self]; rfl

end Cert.KernelIdeal.Block

end
-- ==== Proof.KerFinal.lean ====
import proofs.«147381_j28020366639701_1_alg».proof.Proof.Gen.KernelIdeal.Frame
import proofs.«147381_j28020366639701_1_alg».proof.Proof.KerBlock

set_option maxRecDepth 16384

noncomputable section

open scoped BigOperators

namespace Cert.KernelIdeal.Final

open Idealize.ShloMosaic Idealize.ShloMosaic.TcCoe Idealize.ShloMosaic.ValueIdx Idealize.SL.Sem Cert.KernelIdeal Cert.KernelIdeal.Gen
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a <;> rfl

/-- A block of 2000 rows starting at row `n · 2000`: if the two row blocks hold those rows of `X` and `A` and the
    four small blocks hold the whole weight arrays, a body whose stored value is the perceptron of each row of
    `x0 + x1` stores rows `n · 2000 …` of the round `Cert.Gin.layer`. -/
theorem block_value (relu : Bool)
    (pay : Vec Ideal S2000x128 .f32 → Vec Ideal S2000x128 .f32 → Vec Ideal S128x128 .f32 → Vec Ideal S128 .f32 →
      Vec Ideal S128x128 .f32 → Vec Ideal S128 .f32 → FVec Ideal S2000x128 .f32)
    (hpay : ∀ x0 x1 x2 x3 x4 x5 (p : Fin 2000) (q : Fin 128), pay x0 x1 x2 x3 x4 x5 (ix2 p q)
      = Cert.Gin.perceptron relu (fun j => x0 (ix2 p j) + x1 (ix2 p j)) x2 x3 x4 x5 q)
    (X A : FVec Ideal Cert.Gin.Nodes .f32) (W1 : FVec Ideal Cert.Gin.Mat .f32) (b1 : FVec Ideal Cert.Gin.Bias .f32)
    (W2 : FVec Ideal Cert.Gin.Mat .f32) (b2 : FVec Ideal Cert.Gin.Bias .f32)
    (x0 x1 : Vec Ideal S2000x128 .f32) (x2 : Vec Ideal S128x128 .f32) (x3 : Vec Ideal S128 .f32)
    (x4 : Vec Ideal S128x128 .f32) (x5 : Vec Ideal S128 .f32)
    (n : Nat) (hn : n < 50)
    (h0 : ∀ (p : Fin 2000) (q : Fin 128), x0 (ix2 p q) = X (ix2 (⟨n * 2000 + p.val, by have := p.isLt; omega⟩ : Fin 100000) q))
    (h1 : ∀ (p : Fin 2000) (q : Fin 128), x1 (ix2 p q) = A (ix2 (⟨n * 2000 + p.val, by have := p.isLt; omega⟩ : Fin 100000) q))
    (h2 : x2 = W1) (h3 : x3 = b1) (h4 : x4 = W2) (h5 : x5 = b2) (p : Fin 2000) (q : Fin 128) :
    pay x0 x1 x2 x3 x4 x5 (ix2 p q)
      = Cert.Gin.layer relu X A W1 b1 W2 b2 (ix2 (⟨n * 2000 + p.val, by have := p.isLt; omega⟩ : Fin 100000) q) := by
  subst h2 h3 h4 h5
  rw [hpay, Cert.Gin.layer_ix2]
  refine congrArg (fun h => Cert.Gin.perceptron relu h x2 x3 x4 x5 q) ?_
  funext j
  rw [h0, h1]

variable (V : (c : Dev nD) → (b : Ref sig .tc) → Buf (Elt Ideal) ((c : Thread nD τ).loc b))

/-! ## Region 0 -/

/-- The printed index maps over the 50 grid points: the two row windows move with the output window, one block of
    2000 rows per point; the weight windows stay at block 0. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) = t.val :=
  (by decide +kernel : ∀ t : Fin grid0.N, _)

theorem flushed0_eq (c : Dev nD) (t : Fin cfg0.N) :
    (dat0 (F := Ideal) V c).flushed 6 t = ((cfg0.win 6).blk t).view.read (Elt Ideal)
      (Cert.Gin.layer true (V c main_arg0) (V c main_v13) (V c main_v15) (V c main_v17) (V c main_v19) (V c main_v21)) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S128x128) origin2, View.ld_unit_zero (S := S128) origin1]
  obtain ⟨e00, e01, e10, e11, e20, e21, e30, e40, e41, e50, e61, e60⟩ := idx_facts0 t
  have hn : t.val < 50 := lt_of_lt_of_eq t.isLt N_0
  funext j
  obtain ⟨p, q, rfl⟩ : ∃ (p : Fin 2000) (q : Fin 128), j = ix2 p q := ⟨j 0, j 1, eq_ix2 j⟩
  have hp : p.val < 2000 := p.isLt
  have hq : q.val < 128 := q.isLt
  -- where the output block sits in the array: rows t·2000 …, all 128 columns
  have hout : ((cfg0.win 6).blk t).view.emb (ix2 p q) = ix2 (⟨t.val * 2000 + p.val, by omega⟩ : Fin 100000) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  -- the two row blocks hold the same rows of their arrays
  have h0 : ∀ (p : Fin 2000) (q : Fin 128), iblk0 V c 0 t (ix2 p q)
      = V c main_arg0 (ix2 (⟨t.val * 2000 + p.val, by have := p.isLt; omega⟩ : Fin 100000) q) := fun p q => by
    have hp : p.val < 2000 := p.isLt
    show V c main_arg0 (((cfg0.win 0).blk t).view.emb (ix2 p q)) = _
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * q.val = q.val; omega
  have h1 : ∀ (p : Fin 2000) (q : Fin 128), iblk0 V c 1 t (ix2 p q)
      = V c main_v13 (ix2 (⟨t.val * 2000 + p.val, by have := p.isLt; omega⟩ : Fin 100000) q) := fun p q => by
    have hp : p.val < 2000 := p.isLt
    show V c main_v13 (((cfg0.win 1).blk t).view.emb (ix2 p q)) = _
    refine congrArg (V c main_v13) ?_
    funext a; apply Fin.ext
    match a with
    | ⟨0, _⟩ => show win0_1.index t (0 : Fin 2) * 2000 + 1 * p.val = t.val * 2000 + p.val; omega
    | ⟨1, _⟩ => show win0_1.index t (1 : Fin 2) * 128 + 1 * q.val = q.val; omega
  -- the four small windows hold their whole arrays at every point
  have h2 : iblk0 V c 2 t = V c main_v15 := by
    funext y
    show V c main_v15 (((cfg0.win 2).blk t).view.emb y) = _
    refine congrArg (V c main_v15) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : iblk0 V c 3 t = V c main_v17 := by
    funext y
    show V c main_v17 (((cfg0.win 3).blk t).view.emb y) = _
    refine congrArg (V c main_v17) ?_
    funext a; apply Fin.ext
    match a with
    | ⟨0, _⟩ => show win0_3.index t (0 : Fin 1) * 128 + 1 * (y 0).val = (y 0).val; omega
  have h4 : iblk0 V c 4 t = V c main_v19 := by
    funext y
    show V c main_v19 (((cfg0.win 4).blk t).view.emb y) = _
    refine congrArg (V c main_v19) ?_
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  have h5 : iblk0 V c 5 t = V c main_v21 := by
    funext y
    show V c main_v21 (((cfg0.win 5).blk t).view.emb y) = _
    refine congrArg (V c main_v21) ?_
    funext a; apply Fin.ext
    match a with
    | ⟨0, _⟩ => show win0_5.index t (0 : Fin 1) * 128 + 1 * (y 0).val = (y 0).val; omega
  show k0_pay1 (iblk0 V c 0 t) (iblk0 V c 1 t) (iblk0 V c 2 t) (iblk0 V c 3 t) (iblk0 V c 4 t) (iblk0 V c 5 t) (ix2 p q)
    = Cert.Gin.layer true (V c main_arg0) (V c main_v13) (V c main_v15) (V c main_v17) (V c main_v19) (V c main_v21) (((cfg0.win 6).blk t).view.emb (ix2 p q))
  rw [hout]
  exact block_value true k0_pay1 Cert.KernelIdeal.Block.pay0_apply (V c main_arg0) (V c main_v13) (V c main_v15) (V c main_v17) (V c main_v19) (V c main_v21)
    (iblk0 V c 0 t) (iblk0 V c 1 t) (iblk0 V c 2 t) (iblk0 V c 3 t) (iblk0 V c 4 t) (iblk0 V c 5 t) t.val hn h0 h1 h2 h3 h4 h5 p q

/-- An index of the array is in point `t`'s output block iff each coordinate is in the block's range on its axis. -/
theorem mem_blk0 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- The 50 output blocks tile the array: row `r` lies in the block of point `r / 2000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 2000 < cfg0.N := lt_of_lt_of_eq (by omega : (i 0).val / 2000 < 50) N_0.symm
  obtain ⟨-, -, -, -, -, -, -, -, -, -, e61, e60⟩ := idx_facts0 ⟨(i 0).val / 2000, hlt⟩
  refine ⟨⟨(i 0).val / 2000, hlt⟩, flush0_6 _, ?_⟩
  rw [mem_blk0]
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    have e : win0_6.index ⟨(i 0).val / 2000, hlt⟩ (0 : Fin 2) = (i 0).val / 2000 := e60
    omega
  | ⟨1, _⟩ =>
    show win0_6.index ⟨(i 0).val / 2000, hlt⟩ (1 : Fin 2) * 128 ≤ (i 1).val ∧ (i 1).val < win0_6.index ⟨(i 0).val / 2000, hlt⟩ (1 : Fin 2) * 128 + 128
    omega

/-- Region 0's output array after all 50 points: one clamped round over what the region found. -/
theorem final0 (c : Dev nD) :
    (dat0 (F := Ideal) V c).arrAt 6 cfg0.N
      = Cert.Gin.layer true (V c main_arg0) (V c main_v13) (V c main_v15) (V c main_v17) (V c main_v19) (V c main_v21) :=
  (dat0 (F := Ideal) V c).arrAt_eq_of_cover 6 _ (fun t _ => flushed0_eq V c t) cover0

end Cert.KernelIdeal.Final

end
-- ==== Proof.KerFinal1.lean ====
import proofs.«147381_j28020366639701_1_alg».proof.Proof.KerFinal

set_option maxRecDepth 16384

noncomputable section

open scoped BigOperators

namespace Cert.KernelIdeal.Final

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## Region 1 -/

/-- The printed index maps over the 50 grid points: the two row windows move with the output window, one block of
    2000 rows per point; the weight windows stay at block 0. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) = t.val :=
  (by decide +kernel : ∀ t : Fin grid1.N, _)

theorem flushed1_eq (c : Dev nD) (t : Fin cfg1.N) :
    (dat1 (F := Ideal) V c).flushed 6 t = ((cfg1.win 6).blk t).view.read (Elt Ideal)
      (Cert.Gin.layer true (V c main_v22) (V c main_v32) (V c main_v34) (V c main_v36) (V c main_v38) (V c main_v40)) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S128x128) origin2, View.ld_unit_zero (S := S128) origin1]
  obtain ⟨e00, e01, e10, e11, e20, e21, e30, e40, e41, e50, e61, e60⟩ := idx_facts1 t
  have hn : t.val < 50 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have hq : q.val < 128 := q.isLt
  -- where the output block sits in the array: rows t·2000 …, all 128 columns
  have hout : ((cfg1.win 6).blk t).view.emb (ix2 p q) = ix2 (⟨t.val * 2000 + p.val, by omega⟩ : Fin 100000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  -- the two row blocks hold the same rows of their arrays
  have h0 : ∀ (p : Fin 2000) (q : Fin 128), iblk1 V c 0 t (ix2 p q)
      = V c main_v22 (ix2 (⟨t.val * 2000 + p.val, by have := p.isLt; omega⟩ : Fin 100000) q) := fun p q => by
    have hp : p.val < 2000 := p.isLt
    show V c main_v22 (((cfg1.win 0).blk t).view.emb (ix2 p q)) = _
    refine congrArg (V c main_v22) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : ∀ (p : Fin 2000) (q : Fin 128), iblk1 V c 1 t (ix2 p q)
      = V c main_v32 (ix2 (⟨t.val * 2000 + p.val, by have := p.isLt; omega⟩ : Fin 100000) q) := fun p q => by
    have hp : p.val < 2000 := p.isLt
    show V c main_v32 (((cfg1.win 1).blk t).view.emb (ix2 p q)) = _
    refine congrArg (V c main_v32) ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * q.val = q.val; omega
  -- the four small windows hold their whole arrays at every point
  have h2 : iblk1 V c 2 t = V c main_v34 := by
    funext y
    show V c main_v34 (((cfg1.win 2).blk t).view.emb y) = _
    refine congrArg (V c main_v34) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v36 := by
    funext y
    show V c main_v36 (((cfg1.win 3).blk t).view.emb y) = _
    refine congrArg (V c main_v36) ?_
    funext a; apply Fin.ext
    match a with
    | ⟨0, _⟩ => show win1_3.index t (0 : Fin 1) * 128 + 1 * (y 0).val = (y 0).val; omega
  have h4 : iblk1 V c 4 t = V c main_v38 := by
    funext y
    show V c main_v38 (((cfg1.win 4).blk t).view.emb y) = _
    refine congrArg (V c main_v38) ?_
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : iblk1 V c 5 t = V c main_v40 := by
    funext y
    show V c main_v40 (((cfg1.win 5).blk t).view.emb y) = _
    refine congrArg (V c main_v40) ?_
    funext a; apply Fin.ext
    match a with
    | ⟨0, _⟩ => show win1_5.index t (0 : Fin 1) * 128 + 1 * (y 0).val = (y 0).val; omega
  show k1_pay1 (iblk1 V c 0 t) (iblk1 V c 1 t) (iblk1 V c 2 t) (iblk1 V c 3 t) (iblk1 V c 4 t) (iblk1 V c 5 t) (ix2 p q)
    = Cert.Gin.layer true (V c main_v22) (V c main_v32) (V c main_v34) (V c main_v36) (V c main_v38) (V c main_v40) (((cfg1.win 6).blk t).view.emb (ix2 p q))
  rw [hout]
  exact block_value true k1_pay1 Cert.KernelIdeal.Block.pay1_apply (V c main_v22) (V c main_v32) (V c main_v34) (V c main_v36) (V c main_v38) (V c main_v40)
    (iblk1 V c 0 t) (iblk1 V c 1 t) (iblk1 V c 2 t) (iblk1 V c 3 t) (iblk1 V c 4 t) (iblk1 V c 5 t) t.val hn h0 h1 h2 h3 h4 h5 p q

/-- An index of the array is in point `t`'s output block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

/-- The 50 output blocks tile the array: row `r` lies in the block of point `r / 2000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 2000 < cfg1.N := lt_of_lt_of_eq (by omega : (i 0).val / 2000 < 50) N_1.symm
  obtain ⟨-, -, -, -, -, -, -, -, -, -, e61, e60⟩ := idx_facts1 ⟨(i 0).val / 2000, hlt⟩
  refine ⟨⟨(i 0).val / 2000, hlt⟩, flush1_6 _, ?_⟩
  rw [mem_blk1]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    have e : win1_6.index ⟨(i 0).val / 2000, hlt⟩ (0 : Fin 2) = (i 0).val / 2000 := e60
    omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    omega

/-- Region 1's output array after all 50 points: one clamped round over what the region found. -/
theorem final1 (c : Dev nD) :
    (dat1 (F := Ideal) V c).arrAt 6 cfg1.N
      = Cert.Gin.layer true (V c main_v22) (V c main_v32) (V c main_v34) (V c main_v36) (V c main_v38) (V c main_v40) :=
  (dat1 (F := Ideal) V c).arrAt_eq_of_cover 6 _ (fun t _ => flushed1_eq V c t) cover1

end Cert.KernelIdeal.Final

end
-- ==== Proof.KerFinal2.lean ====
import proofs.«147381_j28020366639701_1_alg».proof.Proof.KerFinal

set_option maxRecDepth 16384

noncomputable section

open scoped BigOperators

namespace Cert.KernelIdeal.Final

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## Region 2 -/

/-- The printed index maps over the 50 grid points: the two row windows move with the output window, one block of
    2000 rows per point; the weight windows stay at block 0. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (1 : Fin 2) = 0 ∧ win2_6.index t (0 : Fin 2) = t.val :=
  (by decide +kernel : ∀ t : Fin grid2.N, _)

theorem flushed2_eq (c : Dev nD) (t : Fin cfg2.N) :
    (dat2 (F := Ideal) V c).flushed 6 t = ((cfg2.win 6).blk t).view.read (Elt Ideal)
      (Cert.Gin.layer false (V c main_v41) (V c main_v51) (V c main_v53) (V c main_v55) (V c main_v57) (V c main_v59)) := by
  show (cfg2.win 6).cut (grid2.coords t) ((dat2 V c).after 6 t) = _
  rw [after2_6]
  unfold out2_6
  rw [View.canon_unit_zero origin2]
  simp only [View.ld_unit_zero (S := S2000x128) origin2, View.ld_unit_zero (S := S128x128) origin2, View.ld_unit_zero (S := S128) origin1]
  obtain ⟨e00, e01, e10, e11, e20, e21, e30, e40, e41, e50, e61, e60⟩ := idx_facts2 t
  have hn : t.val < 50 := lt_of_lt_of_eq t.isLt N_2
  funext j
  obtain ⟨p, q, rfl⟩ : ∃ (p : Fin 2000) (q : Fin 128), j = ix2 p q := ⟨j 0, j 1, eq_ix2 j⟩
  have hp : p.val < 2000 := p.isLt
  have hq : q.val < 128 := q.isLt
  -- where the output block sits in the array: rows t·2000 …, all 128 columns
  have hout : ((cfg2.win 6).blk t).view.emb (ix2 p q) = ix2 (⟨t.val * 2000 + p.val, by omega⟩ : Fin 100000) q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  -- the two row blocks hold the same rows of their arrays
  have h0 : ∀ (p : Fin 2000) (q : Fin 128), iblk2 V c 0 t (ix2 p q)
      = V c main_v41 (ix2 (⟨t.val * 2000 + p.val, by have := p.isLt; omega⟩ : Fin 100000) q) := fun p q => by
    have hp : p.val < 2000 := p.isLt
    show V c main_v41 (((cfg2.win 0).blk t).view.emb (ix2 p q)) = _
    refine congrArg (V c main_v41) ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * q.val = q.val; omega
  have h1 : ∀ (p : Fin 2000) (q : Fin 128), iblk2 V c 1 t (ix2 p q)
      = V c main_v51 (ix2 (⟨t.val * 2000 + p.val, by have := p.isLt; omega⟩ : Fin 100000) q) := fun p q => by
    have hp : p.val < 2000 := p.isLt
    show V c main_v51 (((cfg2.win 1).blk t).view.emb (ix2 p q)) = _
    refine congrArg (V c main_v51) ?_
    funext a; apply Fin.ext
    match a with
    | ⟨0, _⟩ => show win2_1.index t (0 : Fin 2) * 2000 + 1 * p.val = t.val * 2000 + p.val; omega
    | ⟨1, _⟩ => show win2_1.index t (1 : Fin 2) * 128 + 1 * q.val = q.val; omega
  -- the four small windows hold their whole arrays at every point
  have h2 : iblk2 V c 2 t = V c main_v53 := by
    funext y
    show V c main_v53 (((cfg2.win 2).blk t).view.emb y) = _
    refine congrArg (V c main_v53) ?_
    funext a; apply Fin.ext
    match a with
    | ⟨0, _⟩ => show win2_2.index t (0 : Fin 2) * 128 + 1 * (y 0).val = (y 0).val; omega
    | ⟨1, _⟩ => show win2_2.index t (1 : Fin 2) * 128 + 1 * (y 1).val = (y 1).val; omega
  have h3 : iblk2 V c 3 t = V c main_v55 := by
    funext y
    show V c main_v55 (((cfg2.win 3).blk t).view.emb y) = _
    refine congrArg (V c main_v55) ?_
    funext a; apply Fin.ext
    match a with
    | ⟨0, _⟩ => show win2_3.index t (0 : Fin 1) * 128 + 1 * (y 0).val = (y 0).val; omega
  have h4 : iblk2 V c 4 t = V c main_v57 := by
    funext y
    show V c main_v57 (((cfg2.win 4).blk t).view.emb y) = _
    refine congrArg (V c main_v57) ?_
    funext a; apply Fin.ext
    match a with
    | ⟨0, _⟩ => show win2_4.index t (0 : Fin 2) * 128 + 1 * (y 0).val = (y 0).val; omega
    | ⟨1, _⟩ => show win2_4.index t (1 : Fin 2) * 128 + 1 * (y 1).val = (y 1).val; omega
  have h5 : iblk2 V c 5 t = V c main_v59 := by
    funext y
    show V c main_v59 (((cfg2.win 5).blk t).view.emb y) = _
    refine congrArg (V c main_v59) ?_
    funext a; apply Fin.ext
    match a with
    | ⟨0, _⟩ => show win2_5.index t (0 : Fin 1) * 128 + 1 * (y 0).val = (y 0).val; omega
  show k2_pay1 (iblk2 V c 0 t) (iblk2 V c 1 t) (iblk2 V c 2 t) (iblk2 V c 3 t) (iblk2 V c 4 t) (iblk2 V c 5 t) (ix2 p q)
    = Cert.Gin.layer false (V c main_v41) (V c main_v51) (V c main_v53) (V c main_v55) (V c main_v57) (V c main_v59) (((cfg2.win 6).blk t).view.emb (ix2 p q))
  rw [hout]
  exact block_value false k2_pay1 Cert.KernelIdeal.Block.pay2_apply (V c main_v41) (V c main_v51) (V c main_v53) (V c main_v55) (V c main_v57) (V c main_v59)
    (iblk2 V c 0 t) (iblk2 V c 1 t) (iblk2 V c 2 t) (iblk2 V c 3 t) (iblk2 V c 4 t) (iblk2 V c 5 t) t.val hn h0 h1 h2 h3 h4 h5 p q

/-- An index of the array is in point `t`'s output block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v60).slice (win2_6.rect t)).set ↔ _
  rw [View.set_slice_whole, Rect.mem_set_unit]
  exact Iff.rfl

/-- The 50 output blocks tile the array: row `r` lies in the block of point `r / 2000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 2000 < cfg2.N := lt_of_lt_of_eq (by omega : (i 0).val / 2000 < 50) N_2.symm
  obtain ⟨-, -, -, -, -, -, -, -, -, -, e61, e60⟩ := idx_facts2 ⟨(i 0).val / 2000, hlt⟩
  refine ⟨⟨(i 0).val / 2000, hlt⟩, flush2_6 _, ?_⟩
  rw [mem_blk2]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    have e : win2_6.index ⟨(i 0).val / 2000, hlt⟩ (0 : Fin 2) = (i 0).val / 2000 := e60
    omega
  | ⟨1, _⟩ =>
    show win2_6.index ⟨(i 0).val / 2000, hlt⟩ (1 : Fin 2) * 128 ≤ (i 1).val ∧ (i 1).val < win2_6.index ⟨(i 0).val / 2000, hlt⟩ (1 : Fin 2) * 128 + 128
    omega

/-- Region 2's output array after all 50 points: the last round, unclamped, over what the region found. -/
theorem final2 (c : Dev nD) :
    (dat2 (F := Ideal) V c).arrAt 6 cfg2.N
      = Cert.Gin.layer false (V c main_v41) (V c main_v51) (V c main_v53) (V c main_v55) (V c main_v57) (V c main_v59) :=
  (dat2 (F := Ideal) V c).arrAt_eq_of_cover 6 _ (fun t _ => flushed2_eq V c t) cover2

end Cert.KernelIdeal.Final

end
-- ==== Proof.KerHost.lean ====
import proofs.«147381_j28020366639701_1_alg».proof.Proof.Gen.KernelIdeal.Frame
import Idealize.ShloMosaic.Lib.StableHlo.Run
import Idealize.ShloMosaic.PureOps.Ideal

set_option maxRecDepth 16384

noncomputable section

open scoped BigOperators

namespace Cert.KernelIdeal.Host

open Idealize.ShloMosaic Idealize.ShloMosaic.TcCoe Idealize.SL.Sem Cert.KernelIdeal Cert.KernelIdeal.Gen

/-- The neighbour sum, as the host operations compute it from the edge list `e` (row 0 the source node of each edge,
    row 1 its destination) and the node features `x`: a negative source index is shifted up by the node count, the
    source rows are gathered, and each is added into the row of its destination, starting from zeros. -/
def agg (e : (⟨S2x1600000, .i32⟩ : BufTy).Contents (Elt Ideal)) (x : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- Layer `k`'s weight matrix out of the stack of three. -/
def mat0 (W : (⟨S3x128x128, .f32⟩ : BufTy).Contents (Elt Ideal)) : (⟨S128x128, .f32⟩ : BufTy).Contents (Elt Ideal) :=
  shapeCast _ (extractStridedSlice S1x128x128 ![0, 0, 0] W slices_S3x128x128_S1x128x128_0_0_0) shapeCasts_S1x128x128_S128x128
def mat1 (W : (⟨S3x128x128, .f32⟩ : BufTy).Contents (Elt Ideal)) : (⟨S128x128, .f32⟩ : BufTy).Contents (Elt Ideal) :=
  shapeCast _ (extractStridedSlice S1x128x128 ![1, 0, 0] W slices_S3x128x128_S1x128x128_1_0_0) shapeCasts_S1x128x128_S128x128
def mat2 (W : (⟨S3x128x128, .f32⟩ : BufTy).Contents (Elt Ideal)) : (⟨S128x128, .f32⟩ : BufTy).Contents (Elt Ideal) :=
  shapeCast _ (extractStridedSlice S1x128x128 ![2, 0, 0] W slices_S3x128x128_S1x128x128_2_0_0) shapeCasts_S1x128x128_S128x128
/-- Layer `k`'s bias row out of the stack of three. -/
def bias0 (b : (⟨S3x128, .f32⟩ : BufTy).Contents (Elt Ideal)) : (⟨S128, .f32⟩ : BufTy).Contents (Elt Ideal) :=
  shapeCast _ (extractStridedSlice S1x128 ![0, 0] b slices_S3x128_S1x128_0_0) shapeCasts_S1x128_S128
def bias1 (b : (⟨S3x128, .f32⟩ : BufTy).Contents (Elt Ideal)) : (⟨S128, .f32⟩ : BufTy).Contents (Elt Ideal) :=
  shapeCast _ (extractStridedSlice S1x128 ![1, 0] b slices_S3x128_S1x128_1_0) shapeCasts_S1x128_S128
def bias2 (b : (⟨S3x128, .f32⟩ : BufTy).Contents (Elt Ideal)) : (⟨S128, .f32⟩ : BufTy).Contents (Elt Ideal) :=
  shapeCast _ (extractStridedSlice S1x128 ![2, 0] b slices_S3x128_S1x128_2_0) shapeCasts_S1x128_S128

variable (m : (ℓ : Loc nD τ sig) → Buf (Elt Ideal) ℓ) (ρ : Dev nD → PrngReg)

/-- A buffer that none of a stretch's operations writes holds after the stretch what it held before: every operation
    writes one buffer, and the buffer read is another. -/
local macro "unwritten" ops:ident : tactic =>
  `(tactic| (refine StableHlo.after_of_forall_not_mem _ _ (List.forall_iff_forall_mem.mp ?_)
             simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact StableHlo.devRef_ne_of_ne (by decide)))

/-! ## The arguments at the later boundaries: no stretch writes an argument, and no region owns one of these four -/

private theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = W0 m ρ c (Proc.devRef .tc main_arg2)
  unwritten hostOps0
private theorem W4_arg2 (c : Dev nD) : W4 m ρ c (Proc.devRef .tc main_arg2) = m ((c : Thread nD τ).loc main_arg2) := by
  rw [W4_of_ne m ρ c main_arg2 (by decide), ← W2_arg2 m ρ c]
  show StableHlo.after hostOps1 (W2 m ρ c) (Proc.devRef .tc main_arg2) = W2 m ρ c (Proc.devRef .tc main_arg2)
  unwritten hostOps1

private theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = W0 m ρ c (Proc.devRef .tc main_arg3)
  unwritten hostOps0
private theorem W4_arg3 (c : Dev nD) : W4 m ρ c (Proc.devRef .tc main_arg3) = m ((c : Thread nD τ).loc main_arg3) := by
  rw [W4_of_ne m ρ c main_arg3 (by decide), ← W2_arg3 m ρ c]
  show StableHlo.after hostOps1 (W2 m ρ c) (Proc.devRef .tc main_arg3) = W2 m ρ c (Proc.devRef .tc main_arg3)
  unwritten hostOps1

private theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = W0 m ρ c (Proc.devRef .tc main_arg4)
  unwritten hostOps0
private theorem W4_arg4 (c : Dev nD) : W4 m ρ c (Proc.devRef .tc main_arg4) = m ((c : Thread nD τ).loc main_arg4) := by
  rw [W4_of_ne m ρ c main_arg4 (by decide), ← W2_arg4 m ρ c]
  show StableHlo.after hostOps1 (W2 m ρ c) (Proc.devRef .tc main_arg4) = W2 m ρ c (Proc.devRef .tc main_arg4)
  unwritten hostOps1

private theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = W0 m ρ c (Proc.devRef .tc main_arg5)
  unwritten hostOps0
private theorem W4_arg5 (c : Dev nD) : W4 m ρ c (Proc.devRef .tc main_arg5) = m ((c : Thread nD τ).loc main_arg5) := by
  rw [W4_of_ne m ρ c main_arg5 (by decide), ← W2_arg5 m ρ c]
  show StableHlo.after hostOps1 (W2 m ρ c) (Proc.devRef .tc main_arg5) = W2 m ρ c (Proc.devRef .tc main_arg5)
  unwritten hostOps1

/-! ## The two index vectors at the later boundaries: the first stretch cuts them out of the edge list, and nothing
    after it writes them -/

private theorem W2_src (c : Dev nD) : W2 m ρ c (Proc.devRef .tc main_v1) = shapeCast _ (extractStridedSlice S1x1600000 ![0, 0] (m ((c : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results
  rfl
private theorem W2_dst (c : Dev nD) : W2 m ρ c (Proc.devRef .tc main_v3) = shapeCast _ (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results
  rfl
private theorem W4_src (c : Dev nD) : W4 m ρ c (Proc.devRef .tc main_v1) = shapeCast _ (extractStridedSlice S1x1600000 ![0, 0] (m ((c : Thread nD τ).loc main_arg1)) slices_S2x1600000_S1x1600000_0_0) shapeCasts_S1x1600000_S1600000 := by
  rw [W4_of_ne m ρ c main_v1 (by decide), ← W2_src m ρ c]
  show StableHlo.after hostOps1 (W2 m ρ c) (Proc.devRef .tc main_v1) = W2 m ρ c (Proc.devRef .tc main_v1)
  unwritten hostOps1
private theorem W4_dst (c : Dev nD) : W4 m ρ c (Proc.devRef .tc main_v3) = shapeCast _ (extractStridedSlice S1x1600000 ![1, 0] (m ((c : Thread nD τ).loc main_arg1)) slices_S2x1600000_S1x1600000_1_0) shapeCasts_S1x1600000_S1600000 := by
  rw [W4_of_ne m ρ c main_v3 (by decide), ← W2_dst m ρ c]
  show StableHlo.after hostOps1 (W2 m ρ c) (Proc.devRef .tc main_v3) = W2 m ρ c (Proc.devRef .tc main_v3)
  unwritten hostOps1

/-! ## A region's output array is not written by the stretch that follows the region -/

private theorem V3_out0 (c : Dev nD) : V3 m ρ c main_v22 = W2 m ρ c (Proc.devRef .tc main_v22) := by
  show StableHlo.after hostOps1 (W2 m ρ c) (Proc.devRef .tc main_v22) = W2 m ρ c (Proc.devRef .tc main_v22)
  unwritten hostOps1
private theorem V5_out1 (c : Dev nD) : V5 m ρ c main_v41 = W4 m ρ c (Proc.devRef .tc main_v41) := by
  show StableHlo.after hostOps2 (W4 m ρ c) (Proc.devRef .tc main_v41) = W4 m ρ c (Proc.devRef .tc main_v41)
  unwritten hostOps2

/-! ## What region 0 finds in its six input arrays -/

theorem entry0_x (c : Dev nD) : V1 m ρ c main_arg0 = m ((c : Thread nD τ).loc main_arg0) := by
  show StableHlo.after hostOps0 (W0 m ρ c) (Proc.devRef .tc main_arg0) = W0 m ρ c (Proc.devRef .tc main_arg0)
  unwritten hostOps0
theorem entry0_agg (c : Dev nD) : V1 m ρ c main_v13 = agg (m ((c : Thread nD τ).loc main_arg1)) (m ((c : Thread nD τ).loc main_arg0)) := by
  show StableHlo.after hostOps0 (W0 m ρ c) (Proc.devRef .tc main_v13) = _
  after_results
  rfl
theorem entry0_w1 (c : Dev nD) : V1 m ρ c main_v15 = mat0 (m ((c : Thread nD τ).loc main_arg2)) := by
  show StableHlo.after hostOps0 (W0 m ρ c) (Proc.devRef .tc main_v15) = _
  after_results
  rfl
theorem entry0_b1 (c : Dev nD) : V1 m ρ c main_v17 = bias0 (m ((c : Thread nD τ).loc main_arg3)) := by
  show StableHlo.after hostOps0 (W0 m ρ c) (Proc.devRef .tc main_v17) = _
  after_results
  rfl
theorem entry0_w2 (c : Dev nD) : V1 m ρ c main_v19 = mat0 (m ((c : Thread nD τ).loc main_arg4)) := by
  show StableHlo.after hostOps0 (W0 m ρ c) (Proc.devRef .tc main_v19) = _
  after_results
  rfl
theorem entry0_b2 (c : Dev nD) : V1 m ρ c main_v21 = bias0 (m ((c : Thread nD τ).loc main_arg5)) := by
  show StableHlo.after hostOps0 (W0 m ρ c) (Proc.devRef .tc main_v21) = _
  after_results
  rfl

/-! ## What region 1 finds: region 0's output array, its neighbour sum, and layer 1's weights -/

theorem entry1_x (c : Dev nD) : V3 m ρ c main_v22 = (dat0 (V1 m ρ) c).arrAt 6 cfg0.N :=
  (V3_out0 m ρ c).trans (W2_arr m ρ c 6)
theorem entry1_agg (c : Dev nD) : V3 m ρ c main_v32 = agg (m ((c : Thread nD τ).loc main_arg1)) (V3 m ρ c main_v22) := by
  rw [V3_out0 m ρ c]
  show StableHlo.after hostOps1 (W2 m ρ c) (Proc.devRef .tc main_v32) = _
  after_results_simp
  rw [W2_src m ρ c, W2_dst m ρ c]
  generalize W2 m ρ c (Proc.devRef .tc main_v22) = x
  rfl
theorem entry1_w1 (c : Dev nD) : V3 m ρ c main_v34 = mat1 (m ((c : Thread nD τ).loc main_arg2)) := by
  show StableHlo.after hostOps1 (W2 m ρ c) (Proc.devRef .tc main_v34) = _
  after_results
  rw [W2_arg2 m ρ c]
  rfl
theorem entry1_b1 (c : Dev nD) : V3 m ρ c main_v36 = bias1 (m ((c : Thread nD τ).loc main_arg3)) := by
  show StableHlo.after hostOps1 (W2 m ρ c) (Proc.devRef .tc main_v36) = _
  after_results
  rw [W2_arg3 m ρ c]
  rfl
theorem entry1_w2 (c : Dev nD) : V3 m ρ c main_v38 = mat1 (m ((c : Thread nD τ).loc main_arg4)) := by
  show StableHlo.after hostOps1 (W2 m ρ c) (Proc.devRef .tc main_v38) = _
  after_results
  rw [W2_arg4 m ρ c]
  rfl
theorem entry1_b2 (c : Dev nD) : V3 m ρ c main_v40 = bias1 (m ((c : Thread nD τ).loc main_arg5)) := by
  show StableHlo.after hostOps1 (W2 m ρ c) (Proc.devRef .tc main_v40) = _
  after_results
  rw [W2_arg5 m ρ c]
  rfl

/-! ## What region 2 finds: region 1's output array, its neighbour sum, and layer 2's weights -/

theorem entry2_x (c : Dev nD) : V5 m ρ c main_v41 = (dat1 (V3 m ρ) c).arrAt 6 cfg1.N :=
  (V5_out1 m ρ c).trans (W4_arr m ρ c 6)
theorem entry2_agg (c : Dev nD) : V5 m ρ c main_v51 = agg (m ((c : Thread nD τ).loc main_arg1)) (V5 m ρ c main_v41) := by
  rw [V5_out1 m ρ c]
  show StableHlo.after hostOps2 (W4 m ρ c) (Proc.devRef .tc main_v51) = _
  after_results_simp
  rw [W4_src m ρ c, W4_dst m ρ c]
  generalize W4 m ρ c (Proc.devRef .tc main_v41) = x
  rfl
theorem entry2_w1 (c : Dev nD) : V5 m ρ c main_v53 = mat2 (m ((c : Thread nD τ).loc main_arg2)) := by
  show StableHlo.after hostOps2 (W4 m ρ c) (Proc.devRef .tc main_v53) = _
  after_results
  rw [W4_arg2 m ρ c]
  rfl
theorem entry2_b1 (c : Dev nD) : V5 m ρ c main_v55 = bias2 (m ((c : Thread nD τ).loc main_arg3)) := by
  show StableHlo.after hostOps2 (W4 m ρ c) (Proc.devRef .tc main_v55) = _
  after_results
  rw [W4_arg3 m ρ c]
  rfl
theorem entry2_w2 (c : Dev nD) : V5 m ρ c main_v57 = mat2 (m ((c : Thread nD τ).loc main_arg4)) := by
  show StableHlo.after hostOps2 (W4 m ρ c) (Proc.devRef .tc main_v57) = _
  after_results
  rw [W4_arg4 m ρ c]
  rfl
theorem entry2_b2 (c : Dev nD) : V5 m ρ c main_v59 = bias2 (m ((c : Thread nD τ).loc main_arg5)) := by
  show StableHlo.after hostOps2 (W4 m ρ c) (Proc.devRef .tc main_v59) = _
  after_results
  rw [W4_arg5 m ρ c]
  rfl

end Cert.KernelIdeal.Host

end
-- ==== Proof.KerValue.lean ====
import proofs.«147381_j28020366639701_1_alg».proof.Proof.KerFinal
import proofs.«147381_j28020366639701_1_alg».proof.Proof.KerFinal1
import proofs.«147381_j28020366639701_1_alg».proof.Proof.KerFinal2
import proofs.«147381_j28020366639701_1_alg».proof.Proof.KerHost

set_option maxRecDepth 16384

noncomputable section

open scoped BigOperators

namespace Cert.KernelIdeal.Val

open Idealize.ShloMosaic Idealize.ShloMosaic.TcCoe Idealize.SL.Sem Cert.KernelIdeal Cert.KernelIdeal.Gen
open Cert.KernelIdeal.Host Cert.KernelIdeal.Final

variable (m : (ℓ : Loc nD τ sig) → Buf (Elt Ideal) ℓ) (ρ : Dev nD → PrngReg)

/-- Region 0's output array: one round over the launch contents. -/
theorem out0_eq (c : Dev nD) :
    (dat0 (V1 m ρ) c).arrAt 6 cfg0.N
      = Cert.Gin.layer true (m ((c : Thread nD τ).loc main_arg0)) (agg (m ((c : Thread nD τ).loc main_arg1)) (m ((c : Thread nD τ).loc main_arg0))) (mat0 (m ((c : Thread nD τ).loc main_arg2))) (bias0 (m ((c : Thread nD τ).loc main_arg3))) (mat0 (m ((c : Thread nD τ).loc main_arg4))) (bias0 (m ((c : Thread nD τ).loc main_arg5))) := by
  rw [final0 (V1 m ρ) c, entry0_agg, entry0_w1, entry0_b1, entry0_w2, entry0_b2, entry0_x]

/-- Region 1's output array: one round over region 0's. -/
theorem out1_eq (c : Dev nD) :
    (dat1 (V3 m ρ) c).arrAt 6 cfg1.N
      = Cert.Gin.layer true ((dat0 (V1 m ρ) c).arrAt 6 cfg0.N) (agg (m ((c : Thread nD τ).loc main_arg1)) ((dat0 (V1 m ρ) c).arrAt 6 cfg0.N)) (mat1 (m ((c : Thread nD τ).loc main_arg2))) (bias1 (m ((c : Thread nD τ).loc main_arg3))) (mat1 (m ((c : Thread nD τ).loc main_arg4))) (bias1 (m ((c : Thread nD τ).loc main_arg5))) := by
  rw [final1 (V3 m ρ) c, entry1_agg, entry1_w1, entry1_b1, entry1_w2, entry1_b2, entry1_x]

/-- Region 2's output array: the last round, unclamped, over region 1's. -/
theorem out2_eq (c : Dev nD) :
    (dat2 (V5 m ρ) c).arrAt 6 cfg2.N
      = Cert.Gin.layer false ((dat1 (V3 m ρ) c).arrAt 6 cfg1.N) (agg (m ((c : Thread nD τ).loc main_arg1)) ((dat1 (V3 m ρ) c).arrAt 6 cfg1.N)) (mat2 (m ((c : Thread nD τ).loc main_arg2))) (bias2 (m ((c : Thread nD τ).loc main_arg3))) (mat2 (m ((c : Thread nD τ).loc main_arg4))) (bias2 (m ((c : Thread nD τ).loc main_arg5))) := by
  rw [final2 (V5 m ρ) c, entry2_agg, entry2_w1, entry2_b1, entry2_w2, entry2_b2, entry2_x]

/-- The result buffer at the last boundary is the three rounds of the specification over the launch contents. -/
theorem result_eq (c : Dev nD) :
    W6 m ρ c (Proc.devRef .tc main_v60)
      = Cert.Gin.net (agg (m ((c : Thread nD τ).loc main_arg1))) (m ((c : Thread nD τ).loc main_arg0))
          (mat0 (m ((c : Thread nD τ).loc main_arg2))) (bias0 (m ((c : Thread nD τ).loc main_arg3))) (mat0 (m ((c : Thread nD τ).loc main_arg4))) (bias0 (m ((c : Thread nD τ).loc main_arg5)))
          (mat1 (m ((c : Thread nD τ).loc main_arg2))) (bias1 (m ((c : Thread nD τ).loc main_arg3))) (mat1 (m ((c : Thread nD τ).loc main_arg4))) (bias1 (m ((c : Thread nD τ).loc main_arg5)))
          (mat2 (m ((c : Thread nD τ).loc main_arg2))) (bias2 (m ((c : Thread nD τ).loc main_arg3))) (mat2 (m ((c : Thread nD τ).loc main_arg4))) (bias2 (m ((c : Thread nD τ).loc main_arg5))) := by
  refine (W6_arr m ρ c 6).trans ?_
  rw [out2_eq, out1_eq, out0_eq]
  rfl

end Cert.KernelIdeal.Val

end
-- ==== Proof.RefValue.lean ====
import proofs.«147381_j28020366639701_1_alg».proof.Proof.Gen.ReferenceIdeal.Read
import proofs.«147381_j28020366639701_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

/-- The neighbour sum, as the host operations compute it from the edge list `e` (row 0 the source node of each edge,
    row 1 its destination) and the node features `x`: a negative source index is shifted up by the node count, the
    source rows are gathered, and each is added into the row of its destination, starting from zeros. -/
def agg (e : (⟨S2x1600000, .i32⟩ : BufTy).Contents (Elt Ideal)) (x : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- Layer `k`'s weight matrix out of the stack of three. -/
def mat0 (W : (⟨S3x128x128, .f32⟩ : BufTy).Contents (Elt Ideal)) : (⟨S128x128, .f32⟩ : BufTy).Contents (Elt Ideal) :=
  shapeCast _ (extractStridedSlice S1x128x128 ![0, 0, 0] W slices_S3x128x128_S1x128x128_0_0_0) shapeCasts_S1x128x128_S128x128
def mat1 (W : (⟨S3x128x128, .f32⟩ : BufTy).Contents (Elt Ideal)) : (⟨S128x128, .f32⟩ : BufTy).Contents (Elt Ideal) :=
  shapeCast _ (extractStridedSlice S1x128x128 ![1, 0, 0] W slices_S3x128x128_S1x128x128_1_0_0) shapeCasts_S1x128x128_S128x128
def mat2 (W : (⟨S3x128x128, .f32⟩ : BufTy).Contents (Elt Ideal)) : (⟨S128x128, .f32⟩ : BufTy).Contents (Elt Ideal) :=
  shapeCast _ (extractStridedSlice S1x128x128 ![2, 0, 0] W slices_S3x128x128_S1x128x128_2_0_0) shapeCasts_S1x128x128_S128x128
/-- Layer `k`'s bias row out of the stack of three. -/
def bias0 (b : (⟨S3x128, .f32⟩ : BufTy).Contents (Elt Ideal)) : (⟨S128, .f32⟩ : BufTy).Contents (Elt Ideal) :=
  shapeCast _ (extractStridedSlice S1x128 ![0, 0] b slices_S3x128_S1x128_0_0) shapeCasts_S1x128_S128
def bias1 (b : (⟨S3x128, .f32⟩ : BufTy).Contents (Elt Ideal)) : (⟨S128, .f32⟩ : BufTy).Contents (Elt Ideal) :=
  shapeCast _ (extractStridedSlice S1x128 ![1, 0] b slices_S3x128_S1x128_1_0) shapeCasts_S1x128_S128
def bias2 (b : (⟨S3x128, .f32⟩ : BufTy).Contents (Elt Ideal)) : (⟨S128, .f32⟩ : BufTy).Contents (Elt Ideal) :=
  shapeCast _ (extractStridedSlice S1x128 ![2, 0] b slices_S3x128_S1x128_2_0) shapeCasts_S1x128_S128

/-- The array of zeros a round's clamp compares against. -/
def zeros : FVec Ideal S100000x128 .f32 :=
  broadcastInDim S100000x128 ![] bcast_S_S100000x128 (constant (F := Ideal) S_ .f32 0x00000000#32)

/-- A bias row repeated down the 100000 rows. -/
def biasRows (v : FVec Ideal S128 .f32) : FVec Ideal S100000x128 .f32 :=
  broadcastInDim S100000x128 ![0, 1] bcast_S1x128_S100000x128_0_1 (broadcastInDim S1x128 ![1] bcast_S128_S1x128_1 v)

/-- One round as the host operations spell it on whole arrays: `max ((x + a) · W1 + b1) 0 · W2 + b2`. -/
def hostLayer (x a : FVec Ideal S100000x128 .f32) (W1 : FVec Ideal S128x128 .f32) (b1 : FVec Ideal S128 .f32)
    (W2 : FVec Ideal S128x128 .f32) (b2 : FVec Ideal S128 .f32) : FVec Ideal S100000x128 .f32 :=
  addf (Host.dotGeneral (F := Ideal) dot_S100000x128_S128x128_S100000x128_1_0_0_1_n_n none (maximumf (addf (Host.dotGeneral (F := Ideal) dot_S100000x128_S128x128_S100000x128_1_0_0_1_n_n none (addf x a) W1) (biasRows b1)) zeros) W2) (biasRows b2)

/-- The clamp below at zero that closes every round but the last. -/
def clamp (y : FVec Ideal S100000x128 .f32) : FVec Ideal S100000x128 .f32 := maximumf y zeros

theorem zeros_apply (i : S100000x128.Idx) : zeros i = Cert.Gin.zero := by
  unfold zeros
  exact broadcastInDim_apply _ bcast_S_S100000x128 _ i (fun a => a.elim0) (fun a => a.elim0)

/-- The repeated bias row read at row `p`, column `q` is the row's entry `q`. -/
theorem biasRows_apply (v : FVec Ideal S128 .f32) (p : Fin 100000) (q : Fin 128) : biasRows v (ix2 p q) = v (ix1 q) := by
  unfold biasRows
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- The matrix product read at row `p`, column `q`: the sum over the 128 contracted columns. -/
theorem dot_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v23_0 _ _
    | ⟨1, _⟩ => exact (Cert.ReferenceIdeal.Read.lhs_main_v23_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v23_0 _ _).trans hk
    | ⟨1, _⟩ => exact Cert.ReferenceIdeal.Read.rhs_main_v23_1 _ _)
  rw [el, er]

/-- The host round read at an index. -/
theorem hostLayer_apply (x a : FVec Ideal S100000x128 .f32) (W1 : FVec Ideal S128x128 .f32) (b1 : FVec Ideal S128 .f32)
    (W2 : FVec Ideal S128x128 .f32) (b2 : FVec Ideal S128 .f32) (p : Fin 100000) (q : Fin 128) :
    hostLayer x a W1 b1 W2 b2 (ix2 p q)
      = (∑ k : Fin 128, max ((∑ j : Fin 128, (x (ix2 p j) + a (ix2 p j)) * W1 (ix2 j k)) + b1 (ix1 k)) Cert.Gin.zero * W2 (ix2 k q)) + b2 (ix1 q) := by
  unfold hostLayer
  rw [addf_apply, dot_apply, biasRows_apply]
  refine congrArg (· + b2 (ix1 q)) (Finset.sum_congr rfl fun k _ => ?_)
  rw [maximumf_apply, addf_apply, dot_apply, biasRows_apply, zeros_apply]
  refine congrArg (fun s => max (s + b1 (ix1 k)) Cert.Gin.zero * W2 (ix2 k q)) (Finset.sum_congr rfl fun j _ => ?_)
  rw [addf_apply]

/-- The last round: the host operations compute the specification's unclamped round. -/
theorem hostLayer_eq (x a : FVec Ideal S100000x128 .f32) (W1 : FVec Ideal S128x128 .f32) (b1 : FVec Ideal S128 .f32)
    (W2 : FVec Ideal S128x128 .f32) (b2 : FVec Ideal S128 .f32) :
    hostLayer x a W1 b1 W2 b2 = Cert.Gin.layer false x a W1 b1 W2 b2 := by
  funext i
  obtain ⟨p, q, rfl⟩ : ∃ (p : Fin 100000) (q : Fin 128), i = ix2 p q := ⟨i 0, i 1, eq_ix2 i⟩
  rw [Cert.Gin.layer_ix2, hostLayer_apply]
  rfl

/-- The first two rounds: the host operations and the clamp compute the specification's clamped round. -/
theorem clamp_hostLayer_eq (x a : FVec Ideal S100000x128 .f32) (W1 : FVec Ideal S128x128 .f32) (b1 : FVec Ideal S128 .f32)
    (W2 : FVec Ideal S128x128 .f32) (b2 : FVec Ideal S128 .f32) :
    clamp (hostLayer x a W1 b1 W2 b2) = Cert.Gin.layer true x a W1 b1 W2 b2 := by
  funext i
  obtain ⟨p, q, rfl⟩ : ∃ (p : Fin 100000) (q : Fin 128), i = ix2 p q := ⟨i 0, i 1, eq_ix2 i⟩
  unfold clamp
  rw [Cert.Gin.layer_ix2, maximumf_apply, hostLayer_apply, zeros_apply]
  rfl

/-- The specification's three rounds, each spelt by the host operations. -/
theorem net_eq (g : FVec Ideal S100000x128 .f32 → FVec Ideal S100000x128 .f32) (x : FVec Ideal S100000x128 .f32)
    (W1a : FVec Ideal S128x128 .f32) (b1a : FVec Ideal S128 .f32) (W2a : FVec Ideal S128x128 .f32) (b2a : FVec Ideal S128 .f32)
    (W1b : FVec Ideal S128x128 .f32) (b1b : FVec Ideal S128 .f32) (W2b : FVec Ideal S128x128 .f32) (b2b : FVec Ideal S128 .f32)
    (W1c : FVec Ideal S128x128 .f32) (b1c : FVec Ideal S128 .f32) (W2c : FVec Ideal S128x128 .f32) (b2c : FVec Ideal S128 .f32) :
    Cert.Gin.net g x W1a b1a W2a b2a W1b b1b W2b b2b W1c b1c W2c b2c
      = hostLayer
          (clamp (hostLayer (clamp (hostLayer x (g x) W1a b1a W2a b2a)) (g (clamp (hostLayer x (g x) W1a b1a W2a b2a))) W1b b1b W2b b2b))
          (g (clamp (hostLayer (clamp (hostLayer x (g x) W1a b1a W2a b2a)) (g (clamp (hostLayer x (g x) W1a b1a W2a b2a))) W1b b1b W2b b2b)))
          W1c b1c W2c b2c := by
  unfold Cert.Gin.net
  rw [hostLayer_eq, clamp_hostLayer_eq, clamp_hostLayer_eq]

/-- What the reference's run leaves in its result buffer is the three rounds of the specification, over the
    neighbour sum its host operations compute and the slices of the stacked weights. -/
theorem result_eq (m : (ℓ : Loc nD τ sig) → Buf (Elt Ideal) ℓ) (c : Dev nD) :
    Cert.ReferenceIdeal.Value.res_out0 (F := Ideal) m c
      = Cert.Gin.net (agg (m ((c.tc : Thread nD τ).loc main_arg1))) (m ((c.tc : Thread nD τ).loc main_arg0))
          (mat0 (m ((c.tc : Thread nD τ).loc main_arg2))) (bias0 (m ((c.tc : Thread nD τ).loc main_arg3))) (mat0 (m ((c.tc : Thread nD τ).loc main_arg4))) (bias0 (m ((c.tc : Thread nD τ).loc main_arg5)))
          (mat1 (m ((c.tc : Thread nD τ).loc main_arg2))) (bias1 (m ((c.tc : Thread nD τ).loc main_arg3))) (mat1 (m ((c.tc : Thread nD τ).loc main_arg4))) (bias1 (m ((c.tc : Thread nD τ).loc main_arg5)))
          (mat2 (m ((c.tc : Thread nD τ).loc main_arg2))) (bias2 (m ((c.tc : Thread nD τ).loc main_arg3))) (mat2 (m ((c.tc : Thread nD τ).loc main_arg4))) (bias2 (m ((c.tc : Thread nD τ).loc main_arg5))) := by
  show Cert.ReferenceIdeal.Value.res_main_v94 (F := Ideal) m c = _
  -- the specification's rounds, each spelt by the host operations; what is left is the run's own term
  rw [net_eq]
  unfold Cert.ReferenceIdeal.Value.res_main_v94
  rfl

end Cert.ReferenceIdeal.RefValue

end
-- ==== Proof.lean ====
/-
  Three rounds of graph-isomorphism message passing on 100000 nodes with 128 features: in each round a node's row
  becomes `MLP (x_row + Σ_{edges into the node} x_source)`, the perceptron being `max (h·W1 + b1) 0 · W2 + b2`, clamped
  below at zero after all rounds but the last.

  The kernel program and the reference compute the neighbour sum by the SAME host operations (index wrap, row gather,
  row scatter-add), so that part is carried as one unopened function. They differ only in how a round's perceptron runs:
  the kernel in 50 blocks of 2000 rows, each block through two matrix products into zero accumulators; the reference
  on the whole array with two `dot_general`s. On the extended reals both are, entry by entry, the same nested sum over
  the 128 contracted columns in the same order, so the two results are equal with no appeal to finiteness.

  Kernel side: the run of the three regions is re-posted with the result buffer named; that buffer is unfolded region by
  region (blocks → array by the tiling of the rows; the host stretch between regions read back) into the specification
  `Cert.Gin.net`. Reference side: its run's composed term is folded into the same specification.
-/
import proofs.«147381_j28020366639701_1_alg».proof.Defs
import proofs.«147381_j28020366639701_1_alg».proof.Proof.Gen.Kernel
import proofs.«147381_j28020366639701_1_alg».proof.Proof.Gen.Kernel.Frame
import proofs.«147381_j28020366639701_1_alg».proof.Proof.Gen.KernelIdeal
import proofs.«147381_j28020366639701_1_alg».proof.Proof.Gen.KernelIdeal.Frame
import proofs.«147381_j28020366639701_1_alg».proof.Proof.Gen.ReferenceIdeal
import proofs.«147381_j28020366639701_1_alg».proof.Proof.Gen.ReferenceIdeal.Run
import proofs.«147381_j28020366639701_1_alg».proof.Proof.Gen.Pre_finite_inputs
import proofs.«147381_j28020366639701_1_alg».proof.Proof.KerRun
import proofs.«147381_j28020366639701_1_alg».proof.Proof.KerValue
import proofs.«147381_j28020366639701_1_alg».proof.Proof.RefValue

set_option maxRecDepth 16384

noncomputable section

namespace Cert.Proof

open Idealize.ShloMosaic Idealize.ShloMosaic.TcCoe Idealize.SL.Sem

/-! ## The two programs' host pieces are the same functions -/

/-- The neighbour sum: the two programs spell the same operations over records with the same fields. -/
theorem agg_eq : Cert.ReferenceIdeal.RefValue.agg = Cert.KernelIdeal.Host.agg := rfl
theorem mat0_eq : Cert.ReferenceIdeal.RefValue.mat0 = Cert.KernelIdeal.Host.mat0 := rfl
theorem mat1_eq : Cert.ReferenceIdeal.RefValue.mat1 = Cert.KernelIdeal.Host.mat1 := rfl
theorem mat2_eq : Cert.ReferenceIdeal.RefValue.mat2 = Cert.KernelIdeal.Host.mat2 := rfl
theorem bias0_eq : Cert.ReferenceIdeal.RefValue.bias0 = Cert.KernelIdeal.Host.bias0 := rfl
theorem bias1_eq : Cert.ReferenceIdeal.RefValue.bias1 = Cert.KernelIdeal.Host.bias1 := rfl
theorem bias2_eq : Cert.ReferenceIdeal.RefValue.bias2 = Cert.KernelIdeal.Host.bias2 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at the three rounds of the specification over the (agreeing) arguments. -/
theorem algebraic : Cert.algebraic_KernelIdeal_ReferenceIdeal := by
  intro m ρ m' ρ' _ hagree
  refine ⟨fun c => Cert.Gin.net (Cert.KernelIdeal.Host.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0))
          (Cert.KernelIdeal.Host.mat0 (m ((c.tc : Thread Cert.KernelIdeal.nD Cert.KernelIdeal.τ).loc Cert.KernelIdeal.main_arg2))) (Cert.KernelIdeal.Host.bias0 (m ((c.tc : Thread Cert.KernelIdeal.nD Cert.KernelIdeal.τ).loc Cert.KernelIdeal.main_arg3))) (Cert.KernelIdeal.Host.mat0 (m ((c.tc : Thread Cert.KernelIdeal.nD Cert.KernelIdeal.τ).loc Cert.KernelIdeal.main_arg4))) (Cert.KernelIdeal.Host.bias0 (m ((c.tc : Thread Cert.KernelIdeal.nD Cert.KernelIdeal.τ).loc Cert.KernelIdeal.main_arg5)))
          (Cert.KernelIdeal.Host.mat1 (m ((c.tc : Thread Cert.KernelIdeal.nD Cert.KernelIdeal.τ).loc Cert.KernelIdeal.main_arg2))) (Cert.KernelIdeal.Host.bias1 (m ((c.tc : Thread Cert.KernelIdeal.nD Cert.KernelIdeal.τ).loc Cert.KernelIdeal.main_arg3))) (Cert.KernelIdeal.Host.mat1 (m ((c.tc : Thread Cert.KernelIdeal.nD Cert.KernelIdeal.τ).loc Cert.KernelIdeal.main_arg4))) (Cert.KernelIdeal.Host.bias1 (m ((c.tc : Thread Cert.KernelIdeal.nD Cert.KernelIdeal.τ).loc Cert.KernelIdeal.main_arg5)))
          (Cert.KernelIdeal.Host.mat2 (m ((c.tc : Thread Cert.KernelIdeal.nD Cert.KernelIdeal.τ).loc Cert.KernelIdeal.main_arg2))) (Cert.KernelIdeal.Host.bias2 (m ((c.tc : Thread Cert.KernelIdeal.nD Cert.KernelIdeal.τ).loc Cert.KernelIdeal.main_arg3))) (Cert.KernelIdeal.Host.mat2 (m ((c.tc : Thread Cert.KernelIdeal.nD Cert.KernelIdeal.τ).loc Cert.KernelIdeal.main_arg4))) (Cert.KernelIdeal.Host.bias2 (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Val.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans ?_
    rw [(hagree c).1, (hagree c).2.1, (hagree c).2.2.1, (hagree c).2.2.2.1, (hagree c).2.2.2.2.1, (hagree c).2.2.2.2.2,
      agg_eq, mat0_eq, mat1_eq, mat2_eq, bias0_eq, bias1_eq, bias2_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
